-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S32x32 .f32) (main_arg9 : FVec F S32 .f32) (main_arg10 : FVec F S32x1 .f32) (main_arg11 : FVec F S1 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg10
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S32 .f32) (main_arg6 : FVec F S32x32 .f32) (main_arg7 : FVec F S32 .f32) (main_arg8 : FVec F S32x32 .f32) (main_arg9 : FVec F S32 .f32) (main_arg10 : FVec F S32x1 .f32) (main_arg11 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x32 .f32) (main_arg3 : FVec F S32 .f32) (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x32 : Shape := ⟨2, ![1, 32]⟩
abbrev S100000x32 : Shape := ⟨2, ![100000, 32]⟩
abbrev S5000x128 : Shape := ⟨2, ![5000, 128]⟩
abbrev S5000x32 : Shape := ⟨2, ![5000, 32]⟩
abbrev S1600000x32 : Shape := ⟨2, ![1600000, 32]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 66
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x128, .f32⟩
  | .hbm, ⟨30, _⟩ => ⟨S1x32, .f32⟩
  | .hbm, ⟨31, _⟩ => ⟨S1x32, .f32⟩
  | .hbm, ⟨32, _⟩ => ⟨S100000x32, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S100000x32, .f32⟩
  | .hbm, ⟨47, _⟩ => ⟨S1x32, .f32⟩
  | .hbm, ⟨48, _⟩ => ⟨S1x32, .f32⟩
  | .hbm, ⟨49, _⟩ => ⟨S100000x32, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x32, .f32⟩
  | .hbm, ⟨59, _⟩ => ⟨S_, .f32⟩
  | .hbm, ⟨60, _⟩ => ⟨S100000x32, .f32⟩
  | .hbm, ⟨61, _⟩ => ⟨S1600000x1, .i32⟩
  | .hbm, ⟨62, _⟩ => ⟨S100000x32, .f32⟩
  | .hbm, ⟨63, _⟩ => ⟨S100000x32, .f32⟩
  | .hbm, ⟨64, _⟩ => ⟨S1x1, .f32⟩
  | .hbm, ⟨65, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S32x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S32x1, .f32⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S5000x32_S5000x32 : S5000x32.ShapeCasts S5000x32
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x32_S5000x32_1_0_0_1_n_n_wf : DotDims.WF S5000x128 S128x32 S5000x32 [1] [0] [0] [1] [] []
  dot_S5000x32_S32x32_S5000x32_1_0_0_1_n_n_wf : DotDims.WF S5000x32 S32x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x1.size a ≤ S32x1.size a
  hwx2_1 : ∀ i : grid2.Coords, EltTy.bits .f32 = 32 ∨ (Rect.block (s := S32x1) S32x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S32x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x32 : Shape := ⟨2, ![100000, 32]⟩
abbrev S1x32 : Shape := ⟨2, ![1, 32]⟩
abbrev S1600000x32 : Shape := ⟨2, ![1600000, 32]⟩
abbrev S100000x1 : Shape := ⟨2, ![100000, 1]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x128, .f32⟩
  | .hbm, ⟨30, _⟩ => ⟨S100000x32, .f32⟩
  | .hbm, ⟨31, _⟩ => ⟨S1x32, .f32⟩
  | .hbm, ⟨32, _⟩ => ⟨S100000x32, .f32⟩
  | .hbm, ⟨33, _⟩ => ⟨S100000x32, .f32⟩
  | .hbm, ⟨34, _⟩ => ⟨S_, .f32⟩
  | .hbm, ⟨35, _⟩ => ⟨S100000x32, .f32⟩
  | .hbm, ⟨36, _⟩ => ⟨S100000x32, .f32⟩
  | .hbm, ⟨37, _⟩ => ⟨S100000x32, .f32⟩
  | .hbm, ⟨38, _⟩ => ⟨S1x32, .f32⟩
  | .hbm, ⟨39, _⟩ => ⟨S100000x32, .f32⟩
  | .hbm, ⟨40, _⟩ => ⟨S100000x32, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x32, .f32⟩
  | .hbm, ⟨50, _⟩ => ⟨S_, .f32⟩
  | .hbm, ⟨51, _⟩ => ⟨S100000x32, .f32⟩
  | .hbm, ⟨52, _⟩ => ⟨S1600000x1, .i32⟩
  | .hbm, ⟨53, _⟩ => ⟨S100000x32, .f32⟩
  | .hbm, ⟨54, _⟩ => ⟨S100000x32, .f32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S100000x32, .f32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x32, .f32⟩
  | .hbm, ⟨75, _⟩ => ⟨S_, .f32⟩
  | .hbm, ⟨76, _⟩ => ⟨S100000x32, .f32⟩
  | .hbm, ⟨77, _⟩ => ⟨S1600000x1, .i32⟩
  | .hbm, ⟨78, _⟩ => ⟨S100000x32, .f32⟩
  | .hbm, ⟨79, _⟩ => ⟨S100000x32, .f32⟩
  | .hbm, ⟨80, _⟩ => ⟨S100000x1, .f32⟩
  | .hbm, ⟨81, _⟩ => ⟨S1x1, .f32⟩
  | .hbm, ⟨82, _⟩ => ⟨S100000x1, .f32⟩
  | .hbm, ⟨83, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_1 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_cst : Ref sig .tc := ⟨.hbm, 59, rfl⟩
abbrev main_call1_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_4 : Ref sig .tc := ⟨.hbm, 66, rfl⟩
abbrev main_v44 : Ref sig .tc := ⟨.hbm, 67, rfl⟩
abbrev main_v45 : Ref sig .tc := ⟨.hbm, 68, rfl⟩
abbrev main_c_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x1_S100000x1_1_0_0_1_n_n_wf : DotDims.WF S100000x32 S32x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.StretchKeep.lean ====
/-
  An argument array that no host operation and no region writes still holds its launch contents at every boundary
  of the kernel program's @main: one lemma per boundary and argument, for the arguments a later region reads.
-/
import proofs.«141189_j27908697489545_1_alg».proof.Proof.Gen.KernelIdeal.Frame
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Before the first region -/

theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W1_arg8 (c : Dev nD) : W1 m ρ c (Proc.devRef .tc main_arg8) = m ((c : Thread nD τ).loc main_arg8) := by
  show StableHlo.after hostOps0 (W0 m ρ c) (Proc.devRef .tc main_arg8) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_arg10 (c : Dev nD) : W1 m ρ c (Proc.devRef .tc main_arg10) = m ((c : Thread nD τ).loc main_arg10) := by
  show StableHlo.after hostOps0 (W0 m ρ c) (Proc.devRef .tc main_arg10) = _
  after_results
theorem W1_arg11 (c : Dev nD) : W1 m ρ c (Proc.devRef .tc main_arg11) = m ((c : Thread nD τ).loc main_arg11) := by
  show StableHlo.after hostOps0 (W0 m ρ c) (Proc.devRef .tc main_arg11) = _
  after_results

/-! ## After the first region -/

theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)

/-! ## Before the second region -/

theorem W3_arg6 (c : Dev nD) : W3 m ρ c (Proc.devRef .tc main_arg6) = m ((c : Thread nD τ).loc main_arg6) := by
  show StableHlo.after hostOps1 (W2 m ρ c) (Proc.devRef .tc main_arg6) = _
  after_results; exact W2_arg6 m ρ c
theorem W3_arg7 (c : Dev nD) : W3 m ρ c (Proc.devRef .tc main_arg7) = m ((c : Thread nD τ).loc main_arg7) := by
  show StableHlo.after hostOps1 (W2 m ρ c) (Proc.devRef .tc main_arg7) = _
  after_results; exact W2_arg7 m ρ c
theorem W3_arg8 (c : Dev nD) : W3 m ρ c (Proc.devRef .tc main_arg8) = m ((c : Thread nD τ).loc main_arg8) := by
  show StableHlo.after hostOps1 (W2 m ρ c) (Proc.devRef .tc main_arg8) = _
  after_results; exact W2_arg8 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results; exact W2_arg9 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results; exact W2_arg10 m ρ c
theorem W3_arg11 (c : Dev nD) : W3 m ρ c (Proc.devRef .tc main_arg11) = m ((c : Thread nD τ).loc main_arg11) := by
  show StableHlo.after hostOps1 (W2 m ρ c) (Proc.devRef .tc main_arg11) = _
  after_results; exact W2_arg11 m ρ c

/-! ## After the second region -/

theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)

/-! ## Before the third region -/

theorem W5_arg10 (c : Dev nD) : W5 m ρ c (Proc.devRef .tc main_arg10) = m ((c : Thread nD τ).loc main_arg10) := by
  show StableHlo.after hostOps2 (W4 m ρ c) (Proc.devRef .tc main_arg10) = _
  after_results; exact W4_arg10 m ρ c
theorem W5_arg11 (c : Dev nD) : W5 m ρ c (Proc.devRef .tc main_arg11) = m ((c : Thread nD τ).loc main_arg11) := by
  show StableHlo.after hostOps2 (W4 m ρ c) (Proc.devRef .tc main_arg11) = _
  after_results; exact W4_arg11 m ρ c

end Cert.KernelIdeal.Stretch

end
-- ==== Proof.Agg.lean ====
/-
  The neighbour aggregation of one convolution, as ONE function of the node features and the edge list.

  The edge list is a 2 × E integer array: row 0 the source node of each edge, row 1 its destination. A source id is
  first wrapped (a negative id has the node count added), the feature rows of the sources are gathered, and the
  gathered rows are summed into their destination rows starting from zero; the node's own features are added to that
  sum. Both programs of this certificate apply exactly these operations, with the same dimension numbers, before each
  perceptron, so the certificate carries them as one function and never opens a gather or a scatter.
-/
import proofs.«141189_j27908697489545_1_alg».proof.Proof.Gen.KernelIdeal

noncomputable section

namespace Cert.KernelIdeal.Agg

open Idealize.ShloMosaic Cert.KernelIdeal Cert.KernelIdeal.Facts₀ Cert.KernelIdeal.Facts

variable {F : FTy → Type} [FloatOps F]

/-- Row 0 of the edge list: the source node of every edge. -/
def src (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- Row 1 of the edge list: the destination node of every edge. -/
def dst (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- The source ids as the gather's index column: an id below zero has the node count 100000 added. -/
def srcCol (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The destination ids as the scatter's index column. -/
def dstCol (d : (⟨S1600000, .i32⟩ : BufTy).Contents (Elt F)) : (⟨S1600000x1, .i32⟩ : BufTy).Contents (Elt F) :=
  broadcastInDim S1600000x1 ![0] bcast_S1600000_S1600000x1_0 d

/-- Aggregation of 128-channel features: x plus, row by row, the sum of the source rows of the edges that end there. -/
def agg128 (x : (⟨S100000x128, .f32⟩ : BufTy).Contents (Elt F)) (s d : (⟨S1600000, .i32⟩ : BufTy).Contents (Elt F)) :
    (⟨S100000x128, .f32⟩ : BufTy).Contents (Elt F) :=
  addf x (Host.scatterAdd scatter_S100000x128_S1600000x1_S1600000x128_1_0_0_1
    (broadcastInDim S100000x128 ![] bcast_S_S100000x128 (constant S_ .f32 0x00000000#32)) (dstCol d)
    (Host.gather gather_S100000x128_S1600000x1_S1600000x128_1_0_n_n_0_1_1128 x (srcCol s)))

/-- Aggregation of 32-channel features: the same operations at the narrower width. -/
def agg32 (x : (⟨S100000x32, .f32⟩ : BufTy).Contents (Elt F)) (s d : (⟨S1600000, .i32⟩ : BufTy).Contents (Elt F)) :
    (⟨S100000x32, .f32⟩ : BufTy).Contents (Elt F) :=
  addf x (Host.scatterAdd scatter_S100000x32_S1600000x1_S1600000x32_1_0_0_1
    (broadcastInDim S100000x32 ![] bcast_S_S100000x32 (constant S_ .f32 0x00000000#32)) (dstCol d)
    (Host.gather gather_S100000x32_S1600000x1_S1600000x32_1_0_n_n_0_1_132 x (srcCol s)))

end Cert.KernelIdeal.Agg

end
-- ==== Proof.Stretch.lean ====
/-
  What each region of the kernel's program finds in its arrays when it is entered, in terms of the launch memory.

  Between the launch and the first region, and between one region and the next, the program runs host operations:
  the neighbour aggregation of the current features (one function of the features and the edge list), and the
  reshaping of a bias vector into a one-row array. A region changes only its own output array. So the features a
  region finds are the aggregation of what the region before left (of the input features, for the first), its
  weights are the arguments as launched, and its biases are the reshaped arguments. The edge list's two rows are
  computed once, before the first region, and are still in place at every later boundary.
-/
import proofs.«141189_j27908697489545_1_alg».proof.Proof.StretchKeep
import proofs.«141189_j27908697489545_1_alg».proof.Proof.Agg

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Before the first region -/

/-- The source row of the edge list, computed before the first region. -/
theorem W1_v1 (c : Dev nD) : W1 m ρ c (Proc.devRef .tc main_v1) = Agg.src (m ((c : Thread nD τ).loc main_arg1)) := by
  show StableHlo.after hostOps0 (W0 m ρ c) (Proc.devRef .tc main_v1) = _
  after_results; rfl

/-- The destination row of the edge list, computed before the first region. -/
theorem W1_v3 (c : Dev nD) : W1 m ρ c (Proc.devRef .tc main_v3) = Agg.dst (m ((c : Thread nD τ).loc main_arg1)) := by
  show StableHlo.after hostOps0 (W0 m ρ c) (Proc.devRef .tc main_v3) = _
  after_results; rfl

set_option maxHeartbeats 4000000 in
/-- The first region's features: the aggregation of the input features over the edge list. -/
theorem W1_v14 (c : Dev nD) : W1 m ρ c (Proc.devRef .tc main_v14)
    = Agg.agg128 (m ((c : Thread nD τ).loc main_arg0)) (Agg.src (m ((c : Thread nD τ).loc main_arg1))) (Agg.dst (m ((c : Thread nD τ).loc main_arg1))) := by
  show StableHlo.after hostOps0 (W0 m ρ c) (Proc.devRef .tc main_v14) = _
  after_results_simp; rfl

/-- The first region's first bias: the bias vector as a one-row array. -/
theorem W1_v15 (c : Dev nD) : W1 m ρ c (Proc.devRef .tc main_v15)
    = shapeCast S1x32 (m ((c : Thread nD τ).loc main_arg3)) Facts₀.shapeCasts_S32_S1x32 := by
  show StableHlo.after hostOps0 (W0 m ρ c) (Proc.devRef .tc main_v15) = _
  after_results; rfl

/-- The first region's second bias. -/
theorem W1_v16 (c : Dev nD) : W1 m ρ c (Proc.devRef .tc main_v16)
    = shapeCast S1x32 (m ((c : Thread nD τ).loc main_arg5)) Facts₀.shapeCasts_S32_S1x32 := by
  show StableHlo.after hostOps0 (W0 m ρ c) (Proc.devRef .tc main_v16) = _
  after_results; rfl

/-! ## Across the first region, and up to the second -/

/-- The first region's output array holds what its pipeline leaves there. -/
theorem W2_v17 (c : Dev nD) : W2 m ρ c (Proc.devRef .tc main_v17) = (dat0 (V1 m ρ) c).arrAt 5 cfg0.N := W2_arr m ρ c 5

/-- The first region leaves the edge list's rows in place. -/
theorem W2_v1 (c : Dev nD) : W2 m ρ c (Proc.devRef .tc main_v1) = Agg.src (m ((c : Thread nD τ).loc main_arg1)) :=
  (W2_of_ne m ρ c main_v1 (by decide)).trans (W1_v1 m ρ c)
theorem W2_v3 (c : Dev nD) : W2 m ρ c (Proc.devRef .tc main_v3) = Agg.dst (m ((c : Thread nD τ).loc main_arg1)) :=
  (W2_of_ne m ρ c main_v3 (by decide)).trans (W1_v3 m ρ c)

set_option maxHeartbeats 4000000 in
/-- The second region's features: the aggregation of what the first region left. -/
theorem W3_v28 (c : Dev nD) : W3 m ρ c (Proc.devRef .tc main_v28)
    = Agg.agg32 ((dat0 (V1 m ρ) c).arrAt 5 cfg0.N) (Agg.src (m ((c : Thread nD τ).loc main_arg1))) (Agg.dst (m ((c : Thread nD τ).loc main_arg1))) := by
  show StableHlo.after hostOps1 (W2 m ρ c) (Proc.devRef .tc main_v28) = _
  after_results_simp
  rw [W2_v17, W2_v1, W2_v3]; rfl

/-- The second region's two biases. -/
theorem W3_v29 (c : Dev nD) : W3 m ρ c (Proc.devRef .tc main_v29)
    = shapeCast S1x32 (m ((c : Thread nD τ).loc main_arg7)) Facts₀.shapeCasts_S32_S1x32 := by
  show StableHlo.after hostOps1 (W2 m ρ c) (Proc.devRef .tc main_v29) = _
  after_results; rw [W2_arg7]; rfl
theorem W3_v30 (c : Dev nD) : W3 m ρ c (Proc.devRef .tc main_v30)
    = shapeCast S1x32 (m ((c : Thread nD τ).loc main_arg9)) Facts₀.shapeCasts_S32_S1x32 := by
  show StableHlo.after hostOps1 (W2 m ρ c) (Proc.devRef .tc main_v30) = _
  after_results; rw [W2_arg9]; rfl

/-- The host operations before the second region leave the edge list's rows in place. -/
theorem W3_v1 (c : Dev nD) : W3 m ρ c (Proc.devRef .tc main_v1) = Agg.src (m ((c : Thread nD τ).loc main_arg1)) := by
  show StableHlo.after hostOps1 (W2 m ρ c) (Proc.devRef .tc main_v1) = _
  after_results; exact W2_v1 m ρ c
theorem W3_v3 (c : Dev nD) : W3 m ρ c (Proc.devRef .tc main_v3) = Agg.dst (m ((c : Thread nD τ).loc main_arg1)) := by
  show StableHlo.after hostOps1 (W2 m ρ c) (Proc.devRef .tc main_v3) = _
  after_results; exact W2_v3 m ρ c

/-! ## Across the second region, and up to the third -/

/-- The second region's output array holds what its pipeline leaves there. -/
theorem W4_v31 (c : Dev nD) : W4 m ρ c (Proc.devRef .tc main_v31) = (dat1 (V3 m ρ) c).arrAt 5 cfg1.N := W4_arr m ρ c 5

/-- The second region leaves the edge list's rows in place. -/
theorem W4_v1 (c : Dev nD) : W4 m ρ c (Proc.devRef .tc main_v1) = Agg.src (m ((c : Thread nD τ).loc main_arg1)) :=
  (W4_of_ne m ρ c main_v1 (by decide)).trans (W3_v1 m ρ c)
theorem W4_v3 (c : Dev nD) : W4 m ρ c (Proc.devRef .tc main_v3) = Agg.dst (m ((c : Thread nD τ).loc main_arg1)) :=
  (W4_of_ne m ρ c main_v3 (by decide)).trans (W3_v3 m ρ c)

set_option maxHeartbeats 4000000 in
/-- The third region's features: the aggregation of what the second region left. -/
theorem W5_v42 (c : Dev nD) : W5 m ρ c (Proc.devRef .tc main_v42)
    = Agg.agg32 ((dat1 (V3 m ρ) c).arrAt 5 cfg1.N) (Agg.src (m ((c : Thread nD τ).loc main_arg1))) (Agg.dst (m ((c : Thread nD τ).loc main_arg1))) := by
  show StableHlo.after hostOps2 (W4 m ρ c) (Proc.devRef .tc main_v42) = _
  after_results_simp
  rw [W4_v31, W4_v1, W4_v3]; rfl

/-- The third region's bias: the one-entry bias vector as a one-by-one array. -/
theorem W5_v43 (c : Dev nD) : W5 m ρ c (Proc.devRef .tc main_v43)
    = shapeCast S1x1 (m ((c : Thread nD τ).loc main_arg11)) Facts₀.shapeCasts_S1_S1x1 := by
  show StableHlo.after hostOps2 (W4 m ρ c) (Proc.devRef .tc main_v43) = _
  after_results; rw [W4_arg11]; rfl

/-! ## The result -/

/-- The program's result array holds what the third region's pipeline leaves there. -/
theorem W6_v44 (c : Dev nD) : W6 m ρ c (Proc.devRef .tc main_v44) = (dat2 (V5 m ρ) c).arrAt 3 cfg2.N := W6_arr m ρ c 3

end Cert.KernelIdeal.Stretch

end
-- ==== Proof.Spec.lean ====
/-
  The mathematics both programs compute, over the extended reals.

  A node-feature array is read as a matrix h(p, k): node p, channel k. One linear layer sends it to
  (p, q) ↦ (∑ k, h(p, k) · w(k, q)) + b(q); the rectifier is the pointwise maximum with zero; the two-layer
  perceptron of a convolution is linear, rectifier, linear. Nothing here orders or regroups a sum, so no law of the
  extended reals beyond the definitions is used and no finiteness is needed.
-/
import Idealize.ShloMosaic.Lib.ValueIdx
import Idealize.ShloMosaic.PureOps.Ideal.Laws

noncomputable section

open scoped BigOperators

namespace Cert.Spec

open Idealize.ShloMosaic Idealize.ShloMosaic.ValueIdx

/-- One linear layer on rows: entry (p, q) is the sum over the input channel k of h(p, k) · w(k, q), plus the
    bias b(q). -/
def dense {N C H : Nat} (h : Fin N → Fin C → EReal) (w : Fin C → Fin H → EReal) (b : Fin H → EReal) :
    Fin N → Fin H → EReal :=
  fun p q => (∑ k : Fin C, h p k * w k q) + b q

/-- The rectifier: the pointwise maximum with zero. -/
def relu {N H : Nat} (x : Fin N → Fin H → EReal) : Fin N → Fin H → EReal := fun p q => max (x p q) 0

/-- The two-layer perceptron of a convolution: linear, rectifier, linear. -/
def mlp2 {N C H H' : Nat} (h : Fin N → Fin C → EReal) (w1 : Fin C → Fin H → EReal) (b1 : Fin H → EReal)
    (w2 : Fin H → Fin H' → EReal) (b2 : Fin H' → EReal) : Fin N → Fin H' → EReal :=
  dense (relu (dense h w1 b1)) w2 b2

/-- A rank-two array read as a matrix. -/
def mat {M K : Nat} (A : FVec Ideal ⟨2, ![M, K]⟩ .f32) : Fin M → Fin K → EReal := fun a c => A (ix2 a c)

/-- A matrix laid out as a rank-two array. -/
def arr {M K : Nat} (f : Fin M → Fin K → EReal) : FVec Ideal ⟨2, ![M, K]⟩ .f32 := fun j => f (j 0) (j 1)

/-- A rank-one array read as a vector. -/
def vec {n : Nat} (b : FVec Ideal ⟨1, ![n]⟩ .f32) : Fin n → EReal := fun q => b (ix1 q)

/-- The single row of a one-row array read as a vector. -/
def row {n : Nat} (b : FVec Ideal ⟨2, ![1, n]⟩ .f32) : Fin n → EReal := fun q => b (ix2 0 q)

theorem arr_apply {M K : Nat} (f : Fin M → Fin K → EReal) (a : Fin M) (c : Fin K) : arr f (ix2 a c) = f a c := rfl

theorem mat_arr {M K : Nat} (f : Fin M → Fin K → EReal) : mat (arr f) = f := rfl

theorem arr_mat {M K : Nat} (A : FVec Ideal ⟨2, ![M, K]⟩ .f32) : arr (mat A) = A := by
  funext j; exact congrArg A (eq_ix2 j).symm

end Cert.Spec

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Region0.lean ====
import proofs.«141189_j27908697489545_1_alg».proof.Proof.Gen.KernelIdeal.Frame
import proofs.«141189_j27908697489545_1_alg».proof.Proof.Spec
import proofs.«141189_j27908697489545_1_alg».proof.Proof.LibDot
import Idealize.ShloMosaic.Lib.Pipeline.Value
import Idealize.ShloMosaic.Lib.ValueLayout

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen

/-! ## The body's arithmetic at one entry -/

/-- A one-row array spread over the 5000 rows of a block: entry (a, b) of the spread array is entry (0, b) of the
    row. -/
theorem bias_apply (x : FVec Ideal S1x32 .f32) (a : Fin 5000) (b : Fin 32) :
    broadcastTo S5000x32 (shapeCast S1x32 x shapeCasts_S1x32_S1x32) broadcasts_S1x32_S5000x32 (ix2 a b)
      = x (ix2 0 b) := by
  rw [shapeCast_self]
  refine broadcastTo_apply x broadcasts_S1x32_S5000x32 (ix2 a b) (ix2 0 b) fun k => ?_
  match k with
  | ⟨0, _⟩ => rfl
  | ⟨1, _⟩ => rfl

/-- The first linear layer and its rectifier at entry (a, k): the row of the feature block against column k of the
    first weight matrix, plus the bias, cut off below at zero. Rounding to the narrower format is the identity on
    the ideal values. -/
theorem hidden_apply (x0 : FVec Ideal S5000x128 .f32) (x1 : FVec Ideal S128x32 .f32) (x2 : FVec Ideal S1x32 .f32)
    (a : Fin 5000) (k : Fin 32) :
    maximumf
        (addf
          (matmul (F := Ideal) dot_S5000x128_S128x32_S5000x32_1_0_0_1_n_n none
            (truncf .bf16 (shapeCast S5000x128 x0 shapeCasts_S5000x128_S5000x128) bitsLt_bf16_f32)
            (truncf .bf16 x1 bitsLt_bf16_f32) (constant S5000x32 .f32 0x00000000#32))
          (broadcastTo S5000x32 (shapeCast S1x32 x2 shapeCasts_S1x32_S1x32) broadcasts_S1x32_S5000x32))
        (broadcast S5000x32 (Scalar.ofBits .f32 0x00000000#32)) (ix2 a k)
      = Spec.relu (Spec.dense (Spec.mat x0) (Spec.mat x1) (Spec.row x2)) a k := by
  rw [maximumf_apply, addf_apply, broadcast_apply, bias_apply,
    Cert.LibDot.matmul_10_zero_apply dot_S5000x128_S128x32_S5000x32_1_0_0_1_n_n rfl rfl rfl rfl rfl rfl,
    shapeCast_self]
  show max ((∑ c : Fin 128, x0 (ix2 a c) * x1 (ix2 c k)) + x2 (ix2 0 k)) (Ideal.ofBits .f32 0x00000000#32) = _
  rw [Ideal.ofBits_zero_f32]
  rfl

/-- The body's payload at entry (a, b) of a block: the second linear layer applied to the rectified first layer,
    that is ∑ k, max((∑ l, x0(a,l)·x1(l,k)) + x2(0,k), 0) · x3(k,b) + x4(0,b). -/
theorem pay_apply (x0 : Vec Ideal S5000x128 .f32) (x1 : Vec Ideal S128x32 .f32) (x2 : Vec Ideal S1x32 .f32)
    (x3 : Vec Ideal S32x32 .f32) (x4 : Vec Ideal S1x32 .f32) (a : Fin 5000) (b : Fin 32) :
    k0_pay1 (F := Ideal) x0 x1 x2 x3 x4 (ix2 a b)
      = Spec.mlp2 (Spec.mat x0) (Spec.mat x1) (Spec.row x2) (Spec.mat x3) (Spec.row x4) a b := by
  unfold k0_pay1
  refine (addf_apply _ _ _).trans ?_
  refine (congrArg₂ (· + ·)
    (Cert.LibDot.matmul_10_zero_apply dot_S5000x32_S32x32_S5000x32_1_0_0_1_n_n rfl rfl rfl rfl rfl rfl none _ _ a b)
    (bias_apply x4 a b)).trans ?_
  refine congrArg (· + x4 (ix2 0 b)) (Finset.sum_congr rfl fun k _ => ?_)
  exact congrArg (· * x3 (ix2 k b)) (hidden_apply x0 x1 x2 a k)

/-! ## What the body leaves in the output buffer -/

/-- The zero offsets of a whole-block access, spelt as the constant function. -/
theorem zero_offsets : (![0, 0] : Fin 2 → Nat) = fun _ => 0 := funext fun a => by fin_cases a <;> rfl

/-- The body stores once, over the whole output block, the payload of its five whole-block loads: so the buffer it
    leaves is the payload of the five input blocks. -/
theorem out_eq (x0 : Vec Ideal S5000x128 .f32) (x1 : Vec Ideal S128x32 .f32) (x2 : Vec Ideal S1x32 .f32)
    (x3 : Vec Ideal S32x32 .f32) (x4 : Vec Ideal S1x32 .f32) :
    out0_5 (F := Ideal) x0 x1 x2 x3 x4 = k0_pay1 x0 x1 x2 x3 x4 := by
  unfold out0_5
  rw [View.canon_unit_zero zero_offsets]
  simp only [View.ld_unit_zero (S := S5000x128) zero_offsets, View.ld_unit_zero (S := S128x32) zero_offsets,
    View.ld_unit_zero (S := S1x32) zero_offsets, View.ld_unit_zero (S := S32x32) zero_offsets]

variable (V : (c : Dev nD) → (b : Ref sig .tc) → Buf (Elt Ideal) ((c : Thread nD τ).loc b))

/-- The arrays region 0 finds when it is entered, each at its literal type: the aggregated features, the two weight
    matrices and the two one-row biases. -/
abbrev feat (c : Dev nD) : FVec Ideal S100000x128 .f32 := V c (Pipeline.arrRef spec0 0)
abbrev wA (c : Dev nD) : FVec Ideal S128x32 .f32 := V c (Pipeline.arrRef spec0 1)
abbrev bA (c : Dev nD) : FVec Ideal S1x32 .f32 := V c (Pipeline.arrRef spec0 2)
abbrev wB (c : Dev nD) : FVec Ideal S32x32 .f32 := V c (Pipeline.arrRef spec0 3)
abbrev bB (c : Dev nD) : FVec Ideal S1x32 .f32 := V c (Pipeline.arrRef spec0 4)

/-- What region 0 leaves in its output array: the two-layer perceptron of every node's feature row. -/
def G (c : Dev nD) : FVec Ideal S100000x32 .f32 :=
  Spec.arr (Spec.mlp2 (Spec.mat (feat V c)) (Spec.mat (wA V c)) (Spec.row (bA V c)) (Spec.mat (wB V c)) (Spec.row (bB V c)))

/-! ## The blocks the body finds -/

/-- The printed index maps over the grid: the feature window and the output window sit at block (t, 0) at point t;
    every other window sits at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The five input blocks at point t, each at its literal type. -/
abbrev blkFeat (c : Dev nD) (t : Fin cfg0.N) : Vec Ideal S5000x128 .f32 := iblk0 V c 0 t
abbrev blkWA (c : Dev nD) (t : Fin cfg0.N) : Vec Ideal S128x32 .f32 := iblk0 V c 1 t
abbrev blkBA (c : Dev nD) (t : Fin cfg0.N) : Vec Ideal S1x32 .f32 := iblk0 V c 2 t
abbrev blkWB (c : Dev nD) (t : Fin cfg0.N) : Vec Ideal S32x32 .f32 := iblk0 V c 3 t
abbrev blkBB (c : Dev nD) (t : Fin cfg0.N) : Vec Ideal S1x32 .f32 := iblk0 V c 4 t

/-- The first weight matrix is one whole block at every point. -/
theorem blkWA_eq (c : Dev nD) (t : Fin cfg0.N) : blkWA V c t = wA V c := by
  obtain ⟨-, -, e0, e1, -⟩ := idx_facts t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 32 + 1 * (y 1).val = (y 1).val; omega

/-- The first bias row is one whole block at every point. -/
theorem blkBA_eq (c : Dev nD) (t : Fin cfg0.N) : blkBA V c t = bA V c := by
  obtain ⟨-, -, -, -, e0, e1, -⟩ := idx_facts t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- The second weight matrix is one whole block at every point. -/
theorem blkWB_eq (c : Dev nD) (t : Fin cfg0.N) : blkWB V c t = wB V c := by
  obtain ⟨-, -, -, -, -, -, e0, e1, -⟩ := idx_facts t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 32 + 1 * (y 1).val = (y 1).val; omega

/-- The second bias row is one whole block at every point. -/
theorem blkBB_eq (c : Dev nD) (t : Fin cfg0.N) : blkBB V c t = bB V c := by
  obtain ⟨-, -, -, -, -, -, -, -, e0, e1, -⟩ := idx_facts t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- Row a of the block at point t is row 5000·t + a of the array. -/
def rowAt (t : Fin cfg0.N) (a : Fin 5000) : Fin 100000 :=
  ⟨t.val * 5000 + a.val, by have ht : t.val < 20 := t.isLt; have ha := a.isLt; omega⟩

/-- The feature block at point t holds rows 5000·t … 5000·t + 4999 of the feature array. -/
theorem blkFeat_apply (c : Dev nD) (t : Fin cfg0.N) (a : Fin 5000) (l : Fin 128) :
    blkFeat V c t (ix2 a l) = feat V c (ix2 (rowAt t a) l) := by
  obtain ⟨e0, e1, -⟩ := idx_facts t
  show V c (Pipeline.arrRef spec0 0) (((cfg0.win 0).blk t).view.emb (ix2 a l)) = V c (Pipeline.arrRef spec0 0) (ix2 (rowAt t a) l)
  refine congrArg _ (funext fun ax => Fin.ext ?_)
  match ax with
  | ⟨0, _⟩ => show win0_0.index t (0 : Fin 2) * 5000 + 1 * a.val = t.val * 5000 + a.val; omega
  | ⟨1, _⟩ => show win0_0.index t (1 : Fin 2) * 128 + 1 * l.val = l.val; omega

/-- Entry (p, q) of the perceptron reads row p of the features only. -/
theorem mlp2_congr_row {N N' C H H' : Nat} (h : Fin N → Fin C → EReal) (h' : Fin N' → Fin C → EReal)
    (w1 : Fin C → Fin H → EReal) (b1 : Fin H → EReal) (w2 : Fin H → Fin H' → EReal) (b2 : Fin H' → EReal)
    (p : Fin N) (p' : Fin N') (e : ∀ l, h p l = h' p' l) (q : Fin H') :
    Spec.mlp2 h w1 b1 w2 b2 p q = Spec.mlp2 h' w1 b1 w2 b2 p' q := by
  show (∑ k : Fin H, max ((∑ l : Fin C, h p l * w1 l k) + b1 k) 0 * w2 k q) + b2 q
    = (∑ k : Fin H, max ((∑ l : Fin C, h' p' l * w1 l k) + b1 k) 0 * w2 k q) + b2 q
  simp only [e]

/-- WHAT POINT t WRITES BACK is block t of the perceptron of the arrays the region found. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  show out0_5 (F := Ideal) (blkFeat V c t) (blkWA V c t) (blkBA V c t) (blkWB V c t) (blkBB V c t) = _
  rw [out_eq, blkWA_eq, blkBA_eq, blkWB_eq, blkBB_eq]
  obtain ⟨-, -, -, -, -, -, -, -, -, -, e0, e1⟩ := idx_facts t
  funext j
  obtain ⟨a, b, rfl⟩ : ∃ (a : Fin 5000) (b : Fin 32), j = ix2 a b := ⟨j 0, j 1, eq_ix2 j⟩
  rw [pay_apply]
  have hemb : ((cfg0.win 5).blk t).view.emb (ix2 a b) = (ix2 (rowAt t a) b : S100000x32.Idx) := by
    funext ax; apply Fin.ext
    match ax with
    | ⟨0, _⟩ => show win0_5.index t (0 : Fin 2) * 5000 + 1 * a.val = t.val * 5000 + a.val; omega
    | ⟨1, _⟩ => show win0_5.index t (1 : Fin 2) * 32 + 1 * b.val = b.val; omega
  show _ = G V c (((cfg0.win 5).blk t).view.emb (ix2 a b))
  rw [hemb]
  exact mlp2_congr_row _ _ _ _ _ _ a (rowAt t a) (fun l => blkFeat_apply V c t a l) b

/-! ## From the blocks to the array -/

/-- An index of the output array is in point t's block iff each coordinate is in the block's range on its axis. -/
theorem mem_blk (t : Fin cfg0.N) (i : S100000x32.Idx) :
    i ∈ ((cfg0.win 5).blk t).view.set ↔ ∀ a : Fin 2, win0_5.index t a * S5000x32.size a ≤ (i a).val
      ∧ (i a).val < win0_5.index t a * S5000x32.size a + S5000x32.size a := by
  show i ∈ ((View.whole main_v17).slice (win0_5.rect t)).set ↔ _
  rw [View.set_slice_whole, Rect.mem_set_unit]
  exact Iff.rfl

/-- The blocks tile the output array: row r lies in the block of point r / 5000, and every point writes back. -/
theorem cover (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have hlt : (i 0).val / 5000 < 20 := by omega
  obtain ⟨t, ht⟩ : ∃ t : Fin cfg0.N, t.val = (i 0).val / 5000 := ⟨⟨(i 0).val / 5000, hlt⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 32 ≤ (i 1).val ∧ (i 1).val < win0_5.index t (1 : Fin 2) * 32 + 32
    omega

/-- THE OUTPUT ARRAY after the region: every point writes back its block of the perceptron, and the blocks tile the
    array. -/
theorem final (c : Dev nD) : (dat0 (F := Ideal) V c).arrAt 5 cfg0.N = G V c :=
  (dat0 (F := Ideal) V c).arrAt_eq_of_cover 5 (G V c) (fun t _ => flushed_eq V c t) cover

end Cert.KernelIdeal.Region0

end
-- ==== Proof.Region1.lean ====
import proofs.«141189_j27908697489545_1_alg».proof.Proof.Gen.KernelIdeal.Frame
import proofs.«141189_j27908697489545_1_alg».proof.Proof.Spec
import proofs.«141189_j27908697489545_1_alg».proof.Proof.LibDot
import Idealize.ShloMosaic.Lib.Pipeline.Value
import Idealize.ShloMosaic.Lib.ValueLayout

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen

/-! ## The body's arithmetic at one entry -/

/-- A one-row array spread over the 5000 rows of a block: entry (a, b) of the spread array is entry (0, b) of the
    row. -/
theorem bias_apply (x : FVec Ideal S1x32 .f32) (a : Fin 5000) (b : Fin 32) :
    broadcastTo S5000x32 (shapeCast S1x32 x shapeCasts_S1x32_S1x32) broadcasts_S1x32_S5000x32 (ix2 a b)
      = x (ix2 0 b) := by
  rw [shapeCast_self]
  refine broadcastTo_apply x broadcasts_S1x32_S5000x32 (ix2 a b) (ix2 0 b) fun k => ?_
  match k with
  | ⟨0, _⟩ => rfl
  | ⟨1, _⟩ => rfl

/-- The first linear layer and its rectifier at entry (a, k): the row of the feature block against column k of the
    first weight matrix, plus the bias, cut off below at zero. Rounding to the narrower format is the identity on
    the ideal values. -/
theorem hidden_apply (x0 : FVec Ideal S5000x32 .f32) (x1 : FVec Ideal S32x32 .f32) (x2 : FVec Ideal S1x32 .f32)
    (a : Fin 5000) (k : Fin 32) :
    maximumf
        (addf
          (matmul (F := Ideal) dot_S5000x32_S32x32_S5000x32_1_0_0_1_n_n none
            (truncf .bf16 (shapeCast S5000x32 x0 shapeCasts_S5000x32_S5000x32) bitsLt_bf16_f32)
            (truncf .bf16 x1 bitsLt_bf16_f32) (constant S5000x32 .f32 0x00000000#32))
          (broadcastTo S5000x32 (shapeCast S1x32 x2 shapeCasts_S1x32_S1x32) broadcasts_S1x32_S5000x32))
        (broadcast S5000x32 (Scalar.ofBits .f32 0x00000000#32)) (ix2 a k)
      = Spec.relu (Spec.dense (Spec.mat x0) (Spec.mat x1) (Spec.row x2)) a k := by
  rw [maximumf_apply, addf_apply, broadcast_apply, bias_apply,
    Cert.LibDot.matmul_10_zero_apply dot_S5000x32_S32x32_S5000x32_1_0_0_1_n_n rfl rfl rfl rfl rfl rfl,
    shapeCast_self]
  show max ((∑ c : Fin 32, x0 (ix2 a c) * x1 (ix2 c k)) + x2 (ix2 0 k)) (Ideal.ofBits .f32 0x00000000#32) = _
  rw [Ideal.ofBits_zero_f32]
  rfl

/-- The body's payload at entry (a, b) of a block: the second linear layer applied to the rectified first layer,
    that is ∑ k, max((∑ l, x0(a,l)·x1(l,k)) + x2(0,k), 0) · x3(k,b) + x4(0,b). -/
theorem pay_apply (x0 : Vec Ideal S5000x32 .f32) (x1 : Vec Ideal S32x32 .f32) (x2 : Vec Ideal S1x32 .f32)
    (x3 : Vec Ideal S32x32 .f32) (x4 : Vec Ideal S1x32 .f32) (a : Fin 5000) (b : Fin 32) :
    k1_pay1 (F := Ideal) x0 x1 x2 x3 x4 (ix2 a b)
      = Spec.mlp2 (Spec.mat x0) (Spec.mat x1) (Spec.row x2) (Spec.mat x3) (Spec.row x4) a b := by
  unfold k1_pay1
  refine (addf_apply _ _ _).trans ?_
  refine (congrArg₂ (· + ·)
    (Cert.LibDot.matmul_10_zero_apply dot_S5000x32_S32x32_S5000x32_1_0_0_1_n_n rfl rfl rfl rfl rfl rfl none _ _ a b)
    (bias_apply x4 a b)).trans ?_
  refine congrArg (· + x4 (ix2 0 b)) (Finset.sum_congr rfl fun k _ => ?_)
  exact congrArg (· * x3 (ix2 k b)) (hidden_apply x0 x1 x2 a k)

/-! ## What the body leaves in the output buffer -/

/-- The zero offsets of a whole-block access, spelt as the constant function. -/
theorem zero_offsets : (![0, 0] : Fin 2 → Nat) = fun _ => 0 := funext fun a => by fin_cases a <;> rfl

/-- The body stores once, over the whole output block, the payload of its five whole-block loads: so the buffer it
    leaves is the payload of the five input blocks. -/
theorem out_eq (x0 : Vec Ideal S5000x32 .f32) (x1 : Vec Ideal S32x32 .f32) (x2 : Vec Ideal S1x32 .f32)
    (x3 : Vec Ideal S32x32 .f32) (x4 : Vec Ideal S1x32 .f32) :
    out1_5 (F := Ideal) x0 x1 x2 x3 x4 = k1_pay1 x0 x1 x2 x3 x4 := by
  unfold out1_5
  rw [View.canon_unit_zero zero_offsets]
  simp only [View.ld_unit_zero (S := S5000x32) zero_offsets, View.ld_unit_zero (S := S32x32) zero_offsets,
    View.ld_unit_zero (S := S1x32) zero_offsets, View.ld_unit_zero (S := S32x32) zero_offsets]

variable (V : (c : Dev nD) → (b : Ref sig .tc) → Buf (Elt Ideal) ((c : Thread nD τ).loc b))

/-- The arrays region 1 finds when it is entered, each at its literal type: the aggregated features, the two weight
    matrices and the two one-row biases. -/
abbrev feat (c : Dev nD) : FVec Ideal S100000x32 .f32 := V c (Pipeline.arrRef spec1 0)
abbrev wA (c : Dev nD) : FVec Ideal S32x32 .f32 := V c (Pipeline.arrRef spec1 1)
abbrev bA (c : Dev nD) : FVec Ideal S1x32 .f32 := V c (Pipeline.arrRef spec1 2)
abbrev wB (c : Dev nD) : FVec Ideal S32x32 .f32 := V c (Pipeline.arrRef spec1 3)
abbrev bB (c : Dev nD) : FVec Ideal S1x32 .f32 := V c (Pipeline.arrRef spec1 4)

/-- What region 1 leaves in its output array: the two-layer perceptron of every node's feature row. -/
def G (c : Dev nD) : FVec Ideal S100000x32 .f32 :=
  Spec.arr (Spec.mlp2 (Spec.mat (feat V c)) (Spec.mat (wA V c)) (Spec.row (bA V c)) (Spec.mat (wB V c)) (Spec.row (bB V c)))

/-! ## The blocks the body finds -/

/-- The printed index maps over the grid: the feature window and the output window sit at block (t, 0) at point t;
    every other window sits at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The five input blocks at point t, each at its literal type. -/
abbrev blkFeat (c : Dev nD) (t : Fin cfg1.N) : Vec Ideal S5000x32 .f32 := iblk1 V c 0 t
abbrev blkWA (c : Dev nD) (t : Fin cfg1.N) : Vec Ideal S32x32 .f32 := iblk1 V c 1 t
abbrev blkBA (c : Dev nD) (t : Fin cfg1.N) : Vec Ideal S1x32 .f32 := iblk1 V c 2 t
abbrev blkWB (c : Dev nD) (t : Fin cfg1.N) : Vec Ideal S32x32 .f32 := iblk1 V c 3 t
abbrev blkBB (c : Dev nD) (t : Fin cfg1.N) : Vec Ideal S1x32 .f32 := iblk1 V c 4 t

/-- The first weight matrix is one whole block at every point. -/
theorem blkWA_eq (c : Dev nD) (t : Fin cfg1.N) : blkWA V c t = wA V c := by
  obtain ⟨-, -, e0, e1, -⟩ := idx_facts t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 32 + 1 * (y 0).val = (y 0).val; omega
  | ⟨1, _⟩ => show win1_1.index t (1 : Fin 2) * 32 + 1 * (y 1).val = (y 1).val; omega

/-- The first bias row is one whole block at every point. -/
theorem blkBA_eq (c : Dev nD) (t : Fin cfg1.N) : blkBA V c t = bA V c := by
  obtain ⟨-, -, -, -, e0, e1, -⟩ := idx_facts t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 32 + 1 * (y 1).val = (y 1).val; omega

/-- The second weight matrix is one whole block at every point. -/
theorem blkWB_eq (c : Dev nD) (t : Fin cfg1.N) : blkWB V c t = wB V c := by
  obtain ⟨-, -, -, -, -, -, e0, e1, -⟩ := idx_facts t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 32 + 1 * (y 0).val = (y 0).val; omega
  | ⟨1, _⟩ => show win1_3.index t (1 : Fin 2) * 32 + 1 * (y 1).val = (y 1).val; omega

/-- The second bias row is one whole block at every point. -/
theorem blkBB_eq (c : Dev nD) (t : Fin cfg1.N) : blkBB V c t = bB V c := by
  obtain ⟨-, -, -, -, -, -, -, -, e0, e1, -⟩ := idx_facts t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 32 + 1 * (y 1).val = (y 1).val; omega

/-- Row a of the block at point t is row 5000·t + a of the array. -/
def rowAt (t : Fin cfg1.N) (a : Fin 5000) : Fin 100000 :=
  ⟨t.val * 5000 + a.val, by have ht : t.val < 20 := t.isLt; have ha := a.isLt; omega⟩

/-- The feature block at point t holds rows 5000·t … 5000·t + 4999 of the feature array. -/
theorem blkFeat_apply (c : Dev nD) (t : Fin cfg1.N) (a : Fin 5000) (l : Fin 32) :
    blkFeat V c t (ix2 a l) = feat V c (ix2 (rowAt t a) l) := by
  obtain ⟨e0, e1, -⟩ := idx_facts t
  show V c (Pipeline.arrRef spec1 0) (((cfg1.win 0).blk t).view.emb (ix2 a l)) = V c (Pipeline.arrRef spec1 0) (ix2 (rowAt t a) l)
  refine congrArg _ (funext fun ax => Fin.ext ?_)
  match ax with
  | ⟨0, _⟩ => show win1_0.index t (0 : Fin 2) * 5000 + 1 * a.val = t.val * 5000 + a.val; omega
  | ⟨1, _⟩ => show win1_0.index t (1 : Fin 2) * 32 + 1 * l.val = l.val; omega

/-- Entry (p, q) of the perceptron reads row p of the features only. -/
theorem mlp2_congr_row {N N' C H H' : Nat} (h : Fin N → Fin C → EReal) (h' : Fin N' → Fin C → EReal)
    (w1 : Fin C → Fin H → EReal) (b1 : Fin H → EReal) (w2 : Fin H → Fin H' → EReal) (b2 : Fin H' → EReal)
    (p : Fin N) (p' : Fin N') (e : ∀ l, h p l = h' p' l) (q : Fin H') :
    Spec.mlp2 h w1 b1 w2 b2 p q = Spec.mlp2 h' w1 b1 w2 b2 p' q := by
  show (∑ k : Fin H, max ((∑ l : Fin C, h p l * w1 l k) + b1 k) 0 * w2 k q) + b2 q
    = (∑ k : Fin H, max ((∑ l : Fin C, h' p' l * w1 l k) + b1 k) 0 * w2 k q) + b2 q
  simp only [e]

/-- WHAT POINT t WRITES BACK is block t of the perceptron of the arrays the region found. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  show out1_5 (F := Ideal) (blkFeat V c t) (blkWA V c t) (blkBA V c t) (blkWB V c t) (blkBB V c t) = _
  rw [out_eq, blkWA_eq, blkBA_eq, blkWB_eq, blkBB_eq]
  obtain ⟨-, -, -, -, -, -, -, -, -, -, e0, e1⟩ := idx_facts t
  funext j
  obtain ⟨a, b, rfl⟩ : ∃ (a : Fin 5000) (b : Fin 32), j = ix2 a b := ⟨j 0, j 1, eq_ix2 j⟩
  rw [pay_apply]
  have hemb : ((cfg1.win 5).blk t).view.emb (ix2 a b) = (ix2 (rowAt t a) b : S100000x32.Idx) := by
    funext ax; apply Fin.ext
    match ax with
    | ⟨0, _⟩ => show win1_5.index t (0 : Fin 2) * 5000 + 1 * a.val = t.val * 5000 + a.val; omega
    | ⟨1, _⟩ => show win1_5.index t (1 : Fin 2) * 32 + 1 * b.val = b.val; omega
  show _ = G V c (((cfg1.win 5).blk t).view.emb (ix2 a b))
  rw [hemb]
  exact mlp2_congr_row _ _ _ _ _ _ a (rowAt t a) (fun l => blkFeat_apply V c t a l) b

/-! ## From the blocks to the array -/

/-- An index of the output array is in point t's block iff each coordinate is in the block's range on its axis. -/
theorem mem_blk (t : Fin cfg1.N) (i : S100000x32.Idx) :
    i ∈ ((cfg1.win 5).blk t).view.set ↔ ∀ a : Fin 2, win1_5.index t a * S5000x32.size a ≤ (i a).val
      ∧ (i a).val < win1_5.index t a * S5000x32.size a + S5000x32.size a := by
  show i ∈ ((View.whole main_v31).slice (win1_5.rect t)).set ↔ _
  rw [View.set_slice_whole, Rect.mem_set_unit]
  exact Iff.rfl

/-- The blocks tile the output array: row r lies in the block of point r / 5000, and every point writes back. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have hlt : (i 0).val / 5000 < 20 := by omega
  obtain ⟨t, ht⟩ : ∃ t : Fin cfg1.N, t.val = (i 0).val / 5000 := ⟨⟨(i 0).val / 5000, hlt⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 32 ≤ (i 1).val ∧ (i 1).val < win1_5.index t (1 : Fin 2) * 32 + 32
    omega

/-- THE OUTPUT ARRAY after the region: every point writes back its block of the perceptron, and the blocks tile the
    array. -/
theorem final (c : Dev nD) : (dat1 (F := Ideal) V c).arrAt 5 cfg1.N = G V c :=
  (dat1 (F := Ideal) V c).arrAt_eq_of_cover 5 (G V c) (fun t _ => flushed_eq V c t) cover

end Cert.KernelIdeal.Region1

end
-- ==== Proof.Region2.lean ====
import proofs.«141189_j27908697489545_1_alg».proof.Proof.Gen.KernelIdeal.Frame
import proofs.«141189_j27908697489545_1_alg».proof.Proof.Spec
import proofs.«141189_j27908697489545_1_alg».proof.Proof.LibDot
import Idealize.ShloMosaic.Lib.Pipeline.Value
import Idealize.ShloMosaic.Lib.ValueLayout

set_option maxRecDepth 16384

noncomputable section

open scoped BigOperators

namespace Cert.KernelIdeal.Region2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The arrays region 2 finds when it is entered, each at its literal type: the aggregated features, the weight
    column and the one-entry bias. -/
abbrev feat (c : Dev nD) : FVec Ideal S100000x32 .f32 := V c (Pipeline.arrRef spec2 0)
abbrev wA (c : Dev nD) : FVec Ideal S32x1 .f32 := V c (Pipeline.arrRef spec2 1)
abbrev bA (c : Dev nD) : FVec Ideal S1x1 .f32 := V c (Pipeline.arrRef spec2 2)

/-- What region 2 leaves in its output array: one linear layer of every node's feature row. -/
def G (c : Dev nD) : FVec Ideal S100000x1 .f32 :=
  Spec.arr (Spec.dense (Spec.mat (feat V c)) (Spec.mat (wA V c)) (Spec.row (bA V c)))

/-- The output at node r: its feature row against the weight column, plus the bias. -/
theorem G_apply (c : Dev nD) (r : Fin 100000) (q : Fin 1) :
    G V c (ix2 r q) = (∑ k : Fin 32, feat V c (ix2 r k) * wA V c (ix2 k q)) + bA V c (ix2 0 q) := rfl

/-- The body's payload at an entry: row a of the block against the weight column, plus the bias. -/
theorem pay_apply (x0 : Vec Ideal S5000x32 .f32) (x1 : Vec Ideal S32x1 .f32) (x2 : Vec Ideal S1x1 .f32)
    (a : Fin 5000) (b : Fin 1) :
    k2_pay1 (F := Ideal) x0 x1 x2 (ix2 a b) = Spec.dense (Spec.mat x0) (Spec.mat x1) (Spec.row x2) a b := by
  unfold k2_pay1
  rw [addf_apply]
  show _ + _ = (∑ k : Fin 32, x0 (ix2 a k) * x1 (ix2 k b)) + x2 (ix2 0 b)
  congr 1
  · refine (Cert.LibDot.matmul_10_zero_apply (M := 5000) (K := 32) (N := 1) dot_S5000x32_S32x1_S5000x1_1_0_0_1_n_n
      rfl rfl rfl rfl rfl rfl none _ _ a b).trans ?_
    rw [shapeCast_self]
    rfl
  · rw [shapeCast_self]
    refine broadcastTo_apply _ _ _ (ix2 0 b) fun ax => ?_
    have hb : b.val = 0 := by have := b.isLt; omega
    match ax with
    | ⟨0, _⟩ => exact (if_pos rfl).symm
    | ⟨1, _⟩ => exact hb.trans (if_pos rfl).symm

theorem zero_offsets : (![0, 0] : Fin 2 → Nat) = fun _ => 0 := funext fun a => by fin_cases a <;> rfl

/-- The body stores one whole block, so what it leaves in the output buffer is the payload of the blocks it loaded. -/
theorem out_eq (x0 : Vec Ideal S5000x32 .f32) (x1 : Vec Ideal S32x1 .f32) (x2 : Vec Ideal S1x1 .f32) :
    out2_3 (F := Ideal) x0 x1 x2 = k2_pay1 x0 x1 x2 := by
  unfold out2_3
  rw [View.canon_unit_zero zero_offsets]
  simp only [View.ld_unit_zero (S := S5000x32) zero_offsets, View.ld_unit_zero (S := S32x1) zero_offsets,
    View.ld_unit_zero (S := S1x1) zero_offsets]

/-- The block indices over the grid: the feature rows and the output move with the point along the node axis, the
    weight column and the bias stay at block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the feature block at point t is node 5000 t + p of the feature array. -/
theorem feat_block (c : Dev nD) (t : Fin cfg2.N) (p : Fin 5000) (k : Fin 32) (r : Fin 100000)
    (hr : r.val = 5000 * t.val + p.val) :
    (iblk2 (F := Ideal) V c 0 t : Vec Ideal S5000x32 .f32) (ix2 p k) = feat V c (ix2 r k) := by
  obtain ⟨e0, e1, -⟩ := block_indices t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 32 + 1 * k.val = k.val; omega

/-- The weight block at every point is the whole weight column. -/
theorem weight_block (c : Dev nD) (t : Fin cfg2.N) (k : Fin 32) (q : Fin 1) :
    (iblk2 (F := Ideal) V c 1 t : Vec Ideal S32x1 .f32) (ix2 k q) = wA V c (ix2 k q) := by
  obtain ⟨-, -, e0, e1, -⟩ := block_indices t
  show V c (Pipeline.arrRef spec2 1) (((cfg2.win 1).blk t).view.emb (ix2 k q)) = V c (Pipeline.arrRef spec2 1) (ix2 k q)
  refine congrArg _ (funext fun a => Fin.ext ?_)
  match a with
  | ⟨0, _⟩ => show win2_1.index t (0 : Fin 2) * 32 + 1 * k.val = k.val; omega
  | ⟨1, _⟩ => show win2_1.index t (1 : Fin 2) * 1 + 1 * q.val = q.val; omega

/-- The bias block at every point is the whole bias. -/
theorem bias_block (c : Dev nD) (t : Fin cfg2.N) (q : Fin 1) :
    (iblk2 (F := Ideal) V c 2 t : Vec Ideal S1x1 .f32) (ix2 0 q) = bA V c (ix2 0 q) := by
  obtain ⟨-, -, -, -, e0, e1, -⟩ := block_indices t
  show V c (Pipeline.arrRef spec2 2) (((cfg2.win 2).blk t).view.emb (ix2 0 q)) = V c (Pipeline.arrRef spec2 2) (ix2 0 q)
  refine congrArg _ (funext fun a => Fin.ext ?_)
  match a with
  | ⟨0, _⟩ => show win2_2.index t (0 : Fin 2) * 1 + 1 * 0 = 0; omega
  | ⟨1, _⟩ => show win2_2.index t (1 : Fin 2) * 1 + 1 * q.val = q.val; omega

/-- What point t writes back is block t of G. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 V c).after 3 t) = _
  rw [after2_3, out_eq]
  have ht : t.val < 20 := Nat.lt_of_lt_of_eq t.isLt N_2
  obtain ⟨-, -, -, -, -, -, e0, e1⟩ := block_indices t
  funext j
  obtain ⟨p, q, rfl⟩ : ∃ (p : Fin 5000) (q : Fin 1), j = ix2 p q := ⟨j 0, j 1, eq_ix2 j⟩
  have hp := p.isLt
  have hemb : ((cfg2.win 3).blk t).view.emb (ix2 p q) = ix2 (⟨5000 * t.val + p.val, by omega⟩ : Fin 100000) q := by
    funext a; apply Fin.ext
    match a with
    | ⟨0, _⟩ => show win2_3.index t (0 : Fin 2) * 5000 + 1 * p.val = 5000 * t.val + p.val; omega
    | ⟨1, _⟩ => show win2_3.index t (1 : Fin 2) * 1 + 1 * q.val = q.val; omega
  show k2_pay1 (iblk2 V c 0 t) (iblk2 V c 1 t) (iblk2 V c 2 t) (ix2 p q) = G V c (((cfg2.win 3).blk t).view.emb (ix2 p q))
  rw [hemb, G_apply, pay_apply]
  show (∑ k : Fin 32, _ * _) + _ = _
  congr 1
  · refine Finset.sum_congr rfl fun k _ => ?_
    exact congrArg₂ (· * ·) (feat_block V c t p k ⟨5000 * t.val + p.val, by omega⟩ rfl) (weight_block V c t k q)
  · exact bias_block V c t q

/-- An index of the output array is in point t's block iff each coordinate is in the block's range on its axis. -/
theorem mem_blk (t : Fin cfg2.N) (i : S100000x1.Idx) :
    i ∈ ((cfg2.win 3).blk t).view.set ↔ ∀ a : Fin 2, win2_3.index t a * S5000x1.size a ≤ (i a).val
      ∧ (i a).val < win2_3.index t a * S5000x1.size a + S5000x1.size a := by
  show i ∈ ((View.whole main_v44).slice (win2_3.rect t)).set ↔ _
  rw [View.set_slice_whole, Rect.mem_set_unit]
  exact Iff.rfl

/-- Node r lies in the block of point r / 5000, and every point writes its block back. -/
theorem cover (i : S100000x1.Idx) :
    ∃ t : Fin cfg2.N, (cfg2.win 3).flush t = true ∧ i ∈ ((cfg2.win 3).blk t).view.set := by
  have hi0 : (i 0).val < 100000 := (i 0).isLt
  have hi1 : (i 1).val < 1 := (i 1).isLt
  have hN : grid2.N = 20 := N_2
  obtain ⟨t, ht⟩ : ∃ t : Fin cfg2.N, t.val = (i 0).val / 5000 := ⟨⟨(i 0).val / 5000, by show _ < grid2.N; omega⟩, rfl⟩
  obtain ⟨-, -, -, -, -, -, e0, e1⟩ := block_indices t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 1 ≤ (i 1).val ∧ (i 1).val < win2_3.index t (1 : Fin 2) * 1 + 1
    omega

/-- The output array after the region: one linear layer of every node's feature row. -/
theorem final (c : Dev nD) : (dat2 (F := Ideal) V c).arrAt 3 cfg2.N = G V c :=
  (dat2 V c).arrAt_eq_of_cover 3 (G V c) (fun t _ => flushed_eq V c t) cover

end Cert.KernelIdeal.Region2

end
-- ==== Proof.Model.lean ====
/-
  The whole network as ONE function of its twelve arguments, over the extended reals.

  Three convolutions. Each aggregates the current node features over the edge list (one function, carried whole) and
  applies a perceptron to every node's row: linear, rectifier, linear for the first two; one linear layer onto a
  single channel for the third. Both programs of the certificate are shown to compute this function.
-/
import proofs.«141189_j27908697489545_1_alg».proof.Proof.Agg
import proofs.«141189_j27908697489545_1_alg».proof.Proof.Spec

noncomputable section

namespace Cert.Model

open Idealize.ShloMosaic Cert.KernelIdeal Cert.KernelIdeal.Agg Cert.Spec

/-- The first convolution: 128 input channels to 32. -/
def layer1 (x : FVec Ideal S100000x128 .f32) (e : (⟨S2x1600000, .i32⟩ : BufTy).Contents (Elt Ideal))
    (w1 : FVec Ideal S128x32 .f32) (b1 : FVec Ideal S32 .f32) (w2 : FVec Ideal S32x32 .f32) (b2 : FVec Ideal S32 .f32) :
    FVec Ideal S100000x32 .f32 :=
  arr (mlp2 (mat (agg128 x (src e) (dst e))) (mat w1) (vec b1) (mat w2) (vec b2))

/-- The second convolution: 32 channels to 32. -/
def layer2 (h : FVec Ideal S100000x32 .f32) (e : (⟨S2x1600000, .i32⟩ : BufTy).Contents (Elt Ideal))
    (w1 : FVec Ideal S32x32 .f32) (b1 : FVec Ideal S32 .f32) (w2 : FVec Ideal S32x32 .f32) (b2 : FVec Ideal S32 .f32) :
    FVec Ideal S100000x32 .f32 :=
  arr (mlp2 (mat (agg32 h (src e) (dst e))) (mat w1) (vec b1) (mat w2) (vec b2))

/-- The third convolution: 32 channels to one. -/
def layer3 (h : FVec Ideal S100000x32 .f32) (e : (⟨S2x1600000, .i32⟩ : BufTy).Contents (Elt Ideal))
    (w : FVec Ideal S32x1 .f32) (b : FVec Ideal S1 .f32) : FVec Ideal S100000x1 .f32 :=
  arr (dense (mat (agg32 h (src e) (dst e))) (mat w) (vec b))

/-- The network: the three convolutions in turn, over one edge list. -/
def net (x : FVec Ideal S100000x128 .f32) (e : (⟨S2x1600000, .i32⟩ : BufTy).Contents (Elt Ideal))
    (w1a : FVec Ideal S128x32 .f32) (b1a : FVec Ideal S32 .f32) (w1b : FVec Ideal S32x32 .f32) (b1b : FVec Ideal S32 .f32)
    (w2a : FVec Ideal S32x32 .f32) (b2a : FVec Ideal S32 .f32) (w2b : FVec Ideal S32x32 .f32) (b2b : FVec Ideal S32 .f32)
    (w3 : FVec Ideal S32x1 .f32) (b3 : FVec Ideal S1 .f32) : FVec Ideal S100000x1 .f32 :=
  layer3 (layer2 (layer1 x e w1a b1a w1b b1b) e w2a b2a w2b b2b) e w3 b3

end Cert.Model

end
-- ==== Proof.KernelSide.lean ====
/-
  The kernel's program computes the model's network.

  Each region leaves in its output array the perceptron of the features it found, and the features it found are the
  aggregation of what the region before left; its weights are the arguments, its biases the bias vectors laid out as
  one row. Read as a vector, a one-row layout of a vector is that vector. So region by region the output arrays are the
  model's three convolutions, and the program's result array is the network of the launch arguments.
-/
import proofs.«141189_j27908697489545_1_alg».proof.Proof.Stretch
import proofs.«141189_j27908697489545_1_alg».proof.Proof.Region0
import proofs.«141189_j27908697489545_1_alg».proof.Proof.Region1
import proofs.«141189_j27908697489545_1_alg».proof.Proof.Region2
import proofs.«141189_j27908697489545_1_alg».proof.Proof.Model

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A vector laid out as the single row of a one-row array, read back as a vector, is the vector. -/
theorem row_reshape {n : Nat} (b : FVec Ideal ⟨1, ![n]⟩ .f32) (h : (⟨1, ![n]⟩ : Shape).ShapeCasts ⟨2, ![1, n]⟩) :
    Spec.row (shapeCast ⟨2, ![1, n]⟩ b h) = Spec.vec b := by
  funext q
  show shapeCast ⟨2, ![1, n]⟩ b h (ix2 0 q) = b (ix1 q)
  refine (shapeCast_addUnit_apply ![n] b h (ix2 0 q)).trans (congrArg b ?_)
  funext a
  match a with
  | ⟨0, _⟩ => rfl

/-- The first region's output array is the model's first convolution of the launch arguments. -/
theorem conv_first (c : Dev nD) :
    Region0.G (V1 m ρ) c = Cert.Model.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h0 : Region0.feat (V1 m ρ) c = Agg.agg128 (m ((c : Thread nD τ).loc main_arg0)) (Agg.src (m ((c : Thread nD τ).loc main_arg1))) (Agg.dst (m ((c : Thread nD τ).loc main_arg1))) := Stretch.W1_v14 m ρ c
  have h1 : Region0.wA (V1 m ρ) c = (m ((c : Thread nD τ).loc main_arg2)) := Stretch.W1_arg2 m ρ c
  have h2 : Region0.bA (V1 m ρ) c = shapeCast S1x32 (m ((c : Thread nD τ).loc main_arg3)) Facts₀.shapeCasts_S32_S1x32 := Stretch.W1_v15 m ρ c
  have h3 : Region0.wB (V1 m ρ) c = (m ((c : Thread nD τ).loc main_arg4)) := Stretch.W1_arg4 m ρ c
  have h4 : Region0.bB (V1 m ρ) c = shapeCast S1x32 (m ((c : Thread nD τ).loc main_arg5)) Facts₀.shapeCasts_S32_S1x32 := Stretch.W1_v16 m ρ c
  unfold Region0.G Cert.Model.layer1
  rw [h0, h1, h2, h3, h4, row_reshape, row_reshape]

/-- The second region's output array is the model's second convolution of the first region's. -/
theorem conv_second (c : Dev nD) :
    Region1.G (V3 m ρ) c = Cert.Model.layer2 (Region0.G (V1 m ρ) c) (m ((c : Thread nD τ).loc main_arg1)) (m ((c : Thread nD τ).loc main_arg6)) (m ((c : Thread nD τ).loc main_arg7)) (m ((c : Thread nD τ).loc main_arg8)) (m ((c : Thread nD τ).loc main_arg9)) := by
  have h0 : Region1.feat (V3 m ρ) c = Agg.agg32 (Region0.G (V1 m ρ) c) (Agg.src (m ((c : Thread nD τ).loc main_arg1))) (Agg.dst (m ((c : Thread nD τ).loc main_arg1))) :=
    (Stretch.W3_v28 m ρ c).trans (by rw [Region0.final])
  have h1 : Region1.wA (V3 m ρ) c = (m ((c : Thread nD τ).loc main_arg6)) := Stretch.W3_arg6 m ρ c
  have h2 : Region1.bA (V3 m ρ) c = shapeCast S1x32 (m ((c : Thread nD τ).loc main_arg7)) Facts₀.shapeCasts_S32_S1x32 := Stretch.W3_v29 m ρ c
  have h3 : Region1.wB (V3 m ρ) c = (m ((c : Thread nD τ).loc main_arg8)) := Stretch.W3_arg8 m ρ c
  have h4 : Region1.bB (V3 m ρ) c = shapeCast S1x32 (m ((c : Thread nD τ).loc main_arg9)) Facts₀.shapeCasts_S32_S1x32 := Stretch.W3_v30 m ρ c
  unfold Region1.G Cert.Model.layer2
  rw [h0, h1, h2, h3, h4, row_reshape, row_reshape]

/-- The third region's output array is the model's third convolution of the second region's. -/
theorem conv_third (c : Dev nD) :
    Region2.G (V5 m ρ) c = Cert.Model.layer3 (Region1.G (V3 m ρ) c) (m ((c : Thread nD τ).loc main_arg1)) (m ((c : Thread nD τ).loc main_arg10)) (m ((c : Thread nD τ).loc main_arg11)) := by
  have h0 : Region2.feat (V5 m ρ) c = Agg.agg32 (Region1.G (V3 m ρ) c) (Agg.src (m ((c : Thread nD τ).loc main_arg1))) (Agg.dst (m ((c : Thread nD τ).loc main_arg1))) :=
    (Stretch.W5_v42 m ρ c).trans (by rw [Region1.final])
  have h1 : Region2.wA (V5 m ρ) c = (m ((c : Thread nD τ).loc main_arg10)) := Stretch.W5_arg10 m ρ c
  have h2 : Region2.bA (V5 m ρ) c = shapeCast S1x1 (m ((c : Thread nD τ).loc main_arg11)) Facts₀.shapeCasts_S1_S1x1 := Stretch.W5_v43 m ρ c
  unfold Region2.G Cert.Model.layer3
  rw [h0, h1, h2, row_reshape]

/-- The program's result array, at the last boundary, is the model's network of the launch arguments. -/
theorem result (c : Dev nD) : W6 m ρ c (Proc.devRef .tc main_v44)
    = Cert.Model.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Stretch.W6_v44, Region2.final, conv_third, conv_second, conv_first]
  rfl

end Cert.KernelIdeal.Net

end
-- ==== Proof.RefSide.lean ====
/-
  The reference program, stage by stage, against the model of the network.

  The reference aggregates with the very operations the kernel's program uses (the same function of the features and
  the edge list), multiplies by a weight matrix as a sum over the input channel, adds the bias broadcast along the
  rows, and rectifies by the maximum with zero: entry by entry that is the model's linear layer and rectifier.
-/
import proofs.«141189_j27908697489545_1_alg».proof.Proof.Gen.ReferenceIdeal.Read
import proofs.«141189_j27908697489545_1_alg».proof.Proof.Model

set_option maxRecDepth 16384

noncomputable section

open scoped BigOperators

namespace Cert.ReferenceIdeal.RefSide

open Idealize.ShloMosaic Idealize.ShloMosaic.ValueIdx
open Cert.ReferenceIdeal Cert.ReferenceIdeal.Read

/-- The reference's first aggregation is the shared aggregation of the input features. -/
theorem agg_first (x0 : (⟨S100000x128, .f32⟩ : BufTy).Contents (Elt Ideal)) (x1 : (⟨S2x1600000, .i32⟩ : BufTy).Contents (Elt Ideal)) :
    val_main_v14 (F := Ideal) x0 x1 = Cert.KernelIdeal.Agg.agg128 x0 (Cert.KernelIdeal.Agg.src x1) (Cert.KernelIdeal.Agg.dst x1) := by
  unfold val_main_v14 val_main_v13 val_main_v12 val_main_v11 val_main_v10 val_main_v9 val_main_v8 val_main_v7 val_main_v6
    val_main_v5 val_main_v4 val_main_v3 val_main_v2 val_main_v1 val_main_v0 val_main_c val_main_c_0 val_main_cst
  unfold Cert.KernelIdeal.Agg.agg128 Cert.KernelIdeal.Agg.src Cert.KernelIdeal.Agg.dst Cert.KernelIdeal.Agg.srcCol
    Cert.KernelIdeal.Agg.dstCol
  rfl

/-- The reference's first convolution is the model's. -/
theorem conv_first (x0 : (⟨S100000x128, .f32⟩ : BufTy).Contents (Elt Ideal)) (x1 : (⟨S2x1600000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) :
    val_main_v23 (F := Ideal) x0 x1 x2 x3 x4 x5 = Cert.Model.layer1 x0 x1 x2 x3 x4 x5 := by
  funext i
  obtain ⟨p, q, rfl⟩ : ∃ (p : Fin 100000) (q : Fin 32), i = ix2 p q := ⟨i 0, i 1, eq_ix2 i⟩
  have l20 : ∀ k : Fin 32, lidx_main_v20 (ix2 p q) k = ix2 p k := fun k => funext fun a => Fin.ext (by match a with | ⟨0, _⟩ => rfl | ⟨1, _⟩ => rfl)
  have r20 : ∀ k : Fin 32, ridx_main_v20 (ix2 p q) k = ix2 k q := fun k => funext fun a => Fin.ext (by match a with | ⟨0, _⟩ => rfl | ⟨1, _⟩ => rfl)
  have l15 : ∀ (k : Fin 32) (l : Fin 128), lidx_main_v15 (ix2 p k) l = ix2 p l := fun k l => funext fun a => Fin.ext (by match a with | ⟨0, _⟩ => rfl | ⟨1, _⟩ => rfl)
  have r15 : ∀ (k : Fin 32) (l : Fin 128), ridx_main_v15 (ix2 p k) l = ix2 l k := fun k l => funext fun a => Fin.ext (by match a with | ⟨0, _⟩ => rfl | ⟨1, _⟩ => rfl)
  have b1 : ∀ k : Fin 32, idx_main_v16 (idx_main_v17 (ix2 p k)) = ix1 k := fun k => funext fun a => Fin.ext (by match a with | ⟨0, _⟩ => rfl)
  have b2 : idx_main_v21 (idx_main_v22 (ix2 p q)) = ix1 q := funext fun a => Fin.ext (by match a with | ⟨0, _⟩ => rfl)
  have hz : (FloatOps.ofBits (F := Ideal) .f32 0x00000000#32) = 0 := Ideal.ofBits_zero_f32
  rw [val_main_v23_apply, val_main_v20_apply, val_main_v22_apply, val_main_v21_apply, b2]
  simp only [l20, r20, val_main_v19_apply, val_main_v18_apply, val_main_v15_apply, val_main_v17_apply, val_main_v16_apply,
    val_main_call0_v0_apply, val_main_call0_cst_apply, l15, r15, b1, agg_first, Ideal.addf_def, Ideal.maximumf_def,
    hz]
  rfl

/-- The reference's second aggregation is the shared aggregation of the first convolution's result. -/
theorem agg_second (x0 : (⟨S100000x128, .f32⟩ : BufTy).Contents (Elt Ideal)) (x1 : (⟨S2x1600000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) :
    val_main_v34 (F := Ideal) x0 x1 x2 x3 x4 x5
      = Cert.KernelIdeal.Agg.agg32 (val_main_v23 (F := Ideal) x0 x1 x2 x3 x4 x5) (Cert.KernelIdeal.Agg.src x1) (Cert.KernelIdeal.Agg.dst x1) := by
  unfold val_main_v34 val_main_v33 val_main_v32 val_main_v31 val_main_v30 val_main_v29 val_main_v28 val_main_v27 val_main_v26
    val_main_v25 val_main_v24 val_main_v3 val_main_v2 val_main_v1 val_main_v0 val_main_c_1 val_main_c_2 val_main_cst_3
  unfold Cert.KernelIdeal.Agg.agg32 Cert.KernelIdeal.Agg.src Cert.KernelIdeal.Agg.dst Cert.KernelIdeal.Agg.srcCol Cert.KernelIdeal.Agg.dstCol
  generalize val_main_v23 (F := Ideal) x0 x1 x2 x3 x4 x5 = h
  rfl

/-- The reference's second convolution is the model's, of the first one's result. -/
theorem conv_second (x0 : (⟨S100000x128, .f32⟩ : BufTy).Contents (Elt Ideal)) (x1 : (⟨S2x1600000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal)) :
    val_main_v43 (F := Ideal) x0 x1 x2 x3 x4 x5 x6 x7 x8 x9 = Cert.Model.layer2 (val_main_v23 (F := Ideal) x0 x1 x2 x3 x4 x5) x1 x6 x7 x8 x9 := by
  funext i
  obtain ⟨p, q, rfl⟩ : ∃ (p : Fin 100000) (q : Fin 32), i = ix2 p q := ⟨i 0, i 1, eq_ix2 i⟩
  have l40 : ∀ k : Fin 32, lidx_main_v40 (ix2 p q) k = ix2 p k := fun k => funext fun a => Fin.ext (by match a with | ⟨0, _⟩ => rfl | ⟨1, _⟩ => rfl)
  have r40 : ∀ k : Fin 32, ridx_main_v40 (ix2 p q) k = ix2 k q := fun k => funext fun a => Fin.ext (by match a with | ⟨0, _⟩ => rfl | ⟨1, _⟩ => rfl)
  have l35 : ∀ (k l : Fin 32), lidx_main_v35 (ix2 p k) l = ix2 p l := fun k l => funext fun a => Fin.ext (by match a with | ⟨0, _⟩ => rfl | ⟨1, _⟩ => rfl)
  have r35 : ∀ (k l : Fin 32), ridx_main_v35 (ix2 p k) l = ix2 l k := fun k l => funext fun a => Fin.ext (by match a with | ⟨0, _⟩ => rfl | ⟨1, _⟩ => rfl)
  have b1 : ∀ k : Fin 32, idx_main_v36 (idx_main_v37 (ix2 p k)) = ix1 k := fun k => funext fun a => Fin.ext (by match a with | ⟨0, _⟩ => rfl)
  have b2 : idx_main_v41 (idx_main_v42 (ix2 p q)) = ix1 q := funext fun a => Fin.ext (by match a with | ⟨0, _⟩ => rfl)
  have hz : (FloatOps.ofBits (F := Ideal) .f32 0x00000000#32) = 0 := Ideal.ofBits_zero_f32
  rw [val_main_v43_apply, val_main_v40_apply, val_main_v42_apply, val_main_v41_apply, b2]
  simp only [l40, r40, val_main_v39_apply, val_main_v38_apply, val_main_v35_apply, val_main_v37_apply, val_main_v36_apply,
    val_main_call1_v0_apply, val_main_call1_cst_apply, l35, r35, b1, agg_second, Ideal.addf_def, Ideal.maximumf_def, hz]
  rfl

/-- The reference's third aggregation is the shared aggregation of the second convolution's result. -/
theorem agg_third (x0 : (⟨S100000x128, .f32⟩ : BufTy).Contents (Elt Ideal)) (x1 : (⟨S2x1600000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal)) :
    val_main_v54 (F := Ideal) x0 x1 x2 x3 x4 x5 x6 x7 x8 x9
      = Cert.KernelIdeal.Agg.agg32 (val_main_v43 (F := Ideal) x0 x1 x2 x3 x4 x5 x6 x7 x8 x9) (Cert.KernelIdeal.Agg.src x1) (Cert.KernelIdeal.Agg.dst x1) := by
  unfold val_main_v54 val_main_v53 val_main_v52 val_main_v51 val_main_v50 val_main_v49 val_main_v48 val_main_v47 val_main_v46
    val_main_v45 val_main_v44 val_main_v3 val_main_v2 val_main_v1 val_main_v0 val_main_c_4 val_main_c_5 val_main_cst_6
  unfold Cert.KernelIdeal.Agg.agg32 Cert.KernelIdeal.Agg.src Cert.KernelIdeal.Agg.dst Cert.KernelIdeal.Agg.srcCol Cert.KernelIdeal.Agg.dstCol
  generalize val_main_v43 (F := Ideal) x0 x1 x2 x3 x4 x5 x6 x7 x8 x9 = h
  rfl

/-- The reference's third convolution is the model's, of the second one's result. -/
theorem conv_third (x0 : (⟨S100000x128, .f32⟩ : BufTy).Contents (Elt Ideal)) (x1 : (⟨S2x1600000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) :
    val_main_v58 (F := Ideal) x0 x1 x2 x3 x4 x5 x6 x7 x8 x9 x10 x11 = Cert.Model.layer3 (val_main_v43 (F := Ideal) x0 x1 x2 x3 x4 x5 x6 x7 x8 x9) x1 x10 x11 := by
  funext i
  obtain ⟨p, q, rfl⟩ : ∃ (p : Fin 100000) (q : Fin 1), i = ix2 p q := ⟨i 0, i 1, eq_ix2 i⟩
  have hq : q.val = 0 := by have := q.isLt; omega
  have l55 : ∀ k : Fin 32, lidx_main_v55 (ix2 p q) k = ix2 p k := fun k => funext fun a => Fin.ext (by match a with | ⟨0, _⟩ => rfl | ⟨1, _⟩ => rfl)
  have r55 : ∀ k : Fin 32, ridx_main_v55 (ix2 p q) k = ix2 k q := fun k => funext fun a => Fin.ext (by match a with | ⟨0, _⟩ => rfl | ⟨1, _⟩ => rfl)
  have b : idx_main_v56 (idx_main_v57 (ix2 p q)) = ix1 q :=
    funext fun a => Fin.ext (by match a with | ⟨0, _⟩ => exact hq.symm)
  rw [val_main_v58_apply, val_main_v55_apply, val_main_v57_apply, val_main_v56_apply, b]
  simp only [l55, r55, agg_third, Ideal.addf_def]
  rfl

/-- The reference computes the model's network. -/
theorem result (x0 : (⟨S100000x128, .f32⟩ : BufTy).Contents (Elt Ideal)) (x1 : (⟨S2x1600000, .i32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) :
    val_main_v58 (F := Ideal) x0 x1 x2 x3 x4 x5 x6 x7 x8 x9 x10 x11 = Cert.Model.net x0 x1 x2 x3 x4 x5 x6 x7 x8 x9 x10 x11 := by
  rw [conv_third, conv_second, conv_first]; rfl

end Cert.ReferenceIdeal.RefSide

end
-- ==== Proof.lean ====
/-
  A three-layer graph network on 100000 nodes and 1600000 edges: the kernel's program against its jnp reference, equal
  over the extended reals.

  Each convolution first aggregates: to every node's feature row it adds the rows of the source nodes of the edges
  that end at the node. Both programs do this with the same host operations (a gather of the source rows and a
  scatter-add into the destination rows), so the certificate carries the aggregation as ONE function of the features
  and the edge list and never opens it. The convolution then applies a perceptron to every node's row. The kernel
  does that in a row-tiled region of 20 blocks of 5000 rows: a matrix product into a zero accumulator, the bias row
  added, the maximum with zero, a second product and bias (the last layer: one product and bias onto a single
  channel); its changes of float format are the identity on the extended reals. The reference writes the same as
  dot products, a broadcast bias and a maximum with zero. Entry by entry both are
      (∑ k, max((∑ l, h(p,l)·w₁(l,k)) + b₁(k), 0) · w₂(k,q)) + b₂(q),
  with the sums taken over the same index sets in the same form, so no law of the extended reals beyond the
  definitions is needed and the inputs' finiteness is never used.

  The three frames: the two kernel programs' by their generated frame proofs, the reference's by its generated run.
  The idealization rewrote no operation, so there is nothing to preserve. For the value claim the kernel program's
  launch is taken once more with its result array named at the last boundary's contents; region by region that array
  is the model's convolution of the one before (the regions' arrays as whole-array functions, the host stretches read
  back to the launch arguments), and the reference's run, read stage by stage, is the same model.
-/
import proofs.«141189_j27908697489545_1_alg».proof.Defs
import proofs.«141189_j27908697489545_1_alg».proof.Proof.Gen.Kernel
import proofs.«141189_j27908697489545_1_alg».proof.Proof.Gen.Kernel.Skeleton
import proofs.«141189_j27908697489545_1_alg».proof.Proof.Gen.Kernel.Launch
import proofs.«141189_j27908697489545_1_alg».proof.Proof.Gen.Kernel.Points
import proofs.«141189_j27908697489545_1_alg».proof.Proof.Gen.Kernel.Frame
import proofs.«141189_j27908697489545_1_alg».proof.Proof.Gen.KernelIdeal
import proofs.«141189_j27908697489545_1_alg».proof.Proof.Gen.KernelIdeal.Skeleton
import proofs.«141189_j27908697489545_1_alg».proof.Proof.Gen.KernelIdeal.Launch
import proofs.«141189_j27908697489545_1_alg».proof.Proof.Gen.KernelIdeal.Points
import proofs.«141189_j27908697489545_1_alg».proof.Proof.Gen.KernelIdeal.Frame
import proofs.«141189_j27908697489545_1_alg».proof.Proof.Gen.ReferenceIdeal
import proofs.«141189_j27908697489545_1_alg».proof.Proof.Gen.Pre_finite_inputs
import proofs.«141189_j27908697489545_1_alg».proof.Proof.Gen.ReferenceIdeal.Run
import proofs.«141189_j27908697489545_1_alg».proof.Proof.Gen.ReferenceIdeal.Read
import proofs.«141189_j27908697489545_1_alg».proof.Proof.KernelRun
import proofs.«141189_j27908697489545_1_alg».proof.Proof.KernelSide
import proofs.«141189_j27908697489545_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the twelve arguments both programs end with the model's network of those arguments
    in their result arrays: the kernel's program by its launch and the regions' values, the reference by its run read
    stage by stage. -/
theorem algebraic : Cert.algebraic_KernelIdeal_ReferenceIdeal := by
  intro m ρ m' ρ' _ hagree
  refine ⟨fun c => Cert.Model.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Net.result m ρ c), (h c).2⟩)
      (Cert.KernelIdeal.Launched.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v58_eq, Cert.ReferenceIdeal.RefSide.result,
      h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
